-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S800000x64 : Shape := ⟨2, ![800000, 64]⟩
abbrev S50000 : Shape := ⟨1, ![50000]⟩
abbrev S192x20 : Shape := ⟨2, ![192, 20]⟩
abbrev S20 : Shape := ⟨1, ![20]⟩
abbrev S20x20 : Shape := ⟨2, ![20, 20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x20 : S_.BroadcastsInDim S192x20 (![] : Fin 0 → Fin S192x20.rank)
  reducesTo_S192x20_S_d0_1 : S192x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S10x1 .f32) (main_v50 : FVec F S10x1 .f32) : IVec S_ 1 :=
  let main_v51 : IVec S10x1 1 := cmpf .olt main_v49 main_v50
  let main_c_19 : IVec S_ 1 := constantI S_ 1 1#1
  let main_v52 : IVec S_ 1 := (fun x v => Host.reduce IntOp.andi x v reducesTo_S10x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S10 .f32) (main_arg10 : FVec F S10x10 .f32) (main_arg11 : FVec F S10 .f32) (main_arg12 : FVec F S10x1 .f32) (main_arg13 : FVec F S1 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg10
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x1 .f32 := Host.absf main_arg12
  let main_cst_18 : FVec F S_ .f32 := constant S_ .f32 0x7F800000#32
  let main_v50 : FVec F S10x1 .f32 := broadcastInDim S10x1 ![] bcast_S_S10x1 main_cst_18
  fn_part3 (F := F) main_arg13 main_v48 main_v49 main_v50

def fn_part1 {F : FTy → Type} [FloatOps F] (main_arg6 : FVec F S20x20 .f32) (main_arg7 : FVec F S20 .f32) (main_arg8 : FVec F S20x10 .f32) (main_arg9 : FVec F S10 .f32) (main_arg10 : FVec F S10x10 .f32) (main_arg11 : FVec F S10 .f32) (main_arg12 : FVec F S10x1 .f32) (main_arg13 : FVec F S1 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x20 .f32 := Host.absf main_arg6
  let main_cst_6 : FVec F S_ .f32 := constant S_ .f32 0x7F800000#32
  let main_v20 : FVec F S20x20 .f32 := broadcastInDim S20x20 ![] bcast_S_S20x20 main_cst_6
  let main_v21 : IVec S20x20 1 := cmpf .olt main_v19 main_v20
  let main_c_7 : IVec S_ 1 := constantI S_ 1 1#1
  let main_v22 : IVec S_ 1 := (fun x v => Host.reduce IntOp.andi x v reducesTo_S20x20_S_d0_1 h_S_) main_v21 main_c_7
  let main_v23 : IVec S_ 1 := andi main_v18 main_v22
  let main_v24 : FVec F S20 .f32 := Host.absf main_arg7
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x10 .f32 := Host.absf main_arg8
  let main_cst_10 : FVec F S_ .f32 := constant S_ .f32 0x7F800000#32
  let main_v30 : FVec F S20x10 .f32 := broadcastInDim S20x10 ![] bcast_S_S20x10 main_cst_10
  let main_v31 : IVec S20x10 1 := cmpf .olt main_v29 main_v30
  let main_c_11 : IVec S_ 1 := constantI S_ 1 1#1
  let main_v32 : IVec S_ 1 := (fun x v => Host.reduce IntOp.andi x v reducesTo_S20x10_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S2x800000 32) (main_arg1 : FVec F S50000x64 .f32) (main_arg2 : FVec F S800000x64 .f32) (main_arg3 : IVec S50000 32) (main_arg4 : FVec F S192x20 .f32) (main_arg5 : FVec F S20 .f32) (main_arg6 : FVec F S20x20 .f32) (main_arg7 : FVec F S20 .f32) (main_arg8 : FVec F S20x10 .f32) (main_arg9 : FVec F S10 .f32) (main_arg10 : FVec F S10x10 .f32) (main_arg11 : FVec F S10 .f32) (main_arg12 : FVec F S10x1 .f32) (main_arg13 : FVec F S1 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x20 .f32 := Host.absf main_arg4
  let main_cst_2 : FVec F S_ .f32 := constant S_ .f32 0x7F800000#32
  let main_v10 : FVec F S192x20 .f32 := broadcastInDim S192x20 ![] bcast_S_S192x20 main_cst_2
  let main_v11 : IVec S192x20 1 := cmpf .olt main_v9 main_v10
  let main_c_3 : IVec S_ 1 := constantI S_ 1 1#1
  let main_v12 : IVec S_ 1 := (fun x v => Host.reduce IntOp.andi x v reducesTo_S192x20_S_d0_1 h_S_) main_v11 main_c_3
  let main_v13 : IVec S_ 1 := andi main_v8 main_v12
  let main_v14 : FVec F S20 .f32 := Host.absf main_arg5
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg6 main_arg7 main_arg8 main_arg9 main_arg10 main_arg11 main_arg12 main_arg13 main_v13 main_v16
-- ==== Kernel.lean ====
abbrev S2x800000 : Shape := ⟨2, ![2, 800000]⟩
abbrev S50000x64 : Shape := ⟨2, ![50000, 64]⟩
abbrev S800000x64 : Shape := ⟨2, ![800000, 64]⟩
abbrev S50000 : Shape := ⟨1, ![50000]⟩
abbrev S192x20 : Shape := ⟨2, ![192, 20]⟩
abbrev S20 : Shape := ⟨1, ![20]⟩
abbrev S20x20 : Shape := ⟨2, ![20, 20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S64x20 : Shape := ⟨2, ![64, 20]⟩
abbrev S1x20 : Shape := ⟨2, ![1, 20]⟩
abbrev S800000x20 : Shape := ⟨2, ![800000, 20]⟩
abbrev S6400x64 : Shape := ⟨2, ![6400, 64]⟩
abbrev S6400x20 : Shape := ⟨2, ![6400, 20]⟩
abbrev S50000x20 : Shape := ⟨2, ![50000, 20]⟩
abbrev S50000x10 : Shape := ⟨2, ![50000, 10]⟩
abbrev S1x10 : Shape := ⟨2, ![1, 10]⟩
abbrev S512x10 : Shape := ⟨2, ![512, 10]⟩
abbrev S50000x1 : Shape := ⟨2, ![50000, 1]⟩
abbrev S512x1 : Shape := ⟨2, ![512, 1]⟩
abbrev S1x1 : Shape := ⟨2, ![1, 1]⟩

abbrev nBuf : Space → Nat
  | .hbm => 77
  | .vmem => 12
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x64, .f32⟩
  | .hbm, ⟨3, _⟩ => ⟨S50000, .i32⟩
  | .hbm, ⟨4, _⟩ => ⟨S192x20, .f32⟩
  | .hbm, ⟨5, _⟩ => ⟨S20, .f32⟩
  | .hbm, ⟨6, _⟩ => ⟨S20x20, .f32⟩
  | .hbm, ⟨7, _⟩ => ⟨S20, .f32⟩
  | .hbm, ⟨8, _⟩ => ⟨S20x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S10x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S64x20, .f32⟩
  | .hbm, ⟨37, _⟩ => ⟨S64x20, .bf16⟩
  | .hbm, ⟨38, _⟩ => ⟨S64x20, .f32⟩
  | .hbm, ⟨39, _⟩ => ⟨S64x20, .bf16⟩
  | .hbm, ⟨40, _⟩ => ⟨S64x20, .f32⟩
  | .hbm, ⟨41, _⟩ => ⟨S64x20, .bf16⟩
  | .hbm, ⟨42, _⟩ => ⟨S1x20, .f32⟩
  | .hbm, ⟨43, _⟩ => ⟨S800000x20, .f32⟩
  | .hbm, ⟨44, _⟩ => ⟨S_, .f32⟩
  | .hbm, ⟨45, _⟩ => ⟨S50000x20, .f32⟩
  | .hbm, ⟨46, _⟩ => ⟨S800000x1, .i32⟩
  | .hbm, ⟨47, _⟩ => ⟨S50000x20, .f32⟩
  | .hbm, ⟨48, _⟩ => ⟨S50000x20, .f32⟩
  | .hbm, ⟨49, _⟩ => ⟨S1x20, .f32⟩
  | .hbm, ⟨50, _⟩ => ⟨S50000x20, .f32⟩
  | .hbm, ⟨51, _⟩ => ⟨S50000x20, .f32⟩
  | .hbm, ⟨52, _⟩ => ⟨S_, .f32⟩
  | .hbm, ⟨53, _⟩ => ⟨S50000x20, .f32⟩
  | .hbm, ⟨54, _⟩ => ⟨S50000x20, .f32⟩
  | .hbm, ⟨55, _⟩ => ⟨S50000x10, .f32⟩
  | .hbm, ⟨56, _⟩ => ⟨S1x10, .f32⟩
  | .hbm, ⟨57, _⟩ => ⟨S50000x10, .f32⟩
  | .hbm, ⟨58, _⟩ => ⟨S50000x10, .f32⟩
  | .hbm, ⟨59, _⟩ => ⟨S_, .f32⟩
  | .hbm, ⟨60, _⟩ => ⟨S50000x10, .f32⟩
  | .hbm, ⟨61, _⟩ => ⟨S50000x10, .f32⟩
  | .hbm, ⟨62, _⟩ => ⟨S_, .f32⟩
  | .hbm, ⟨63, _⟩ => ⟨S512x10, .f32⟩
  | .hbm, ⟨64, _⟩ => ⟨S50000x1, .i32⟩
  | .hbm, ⟨65, _⟩ => ⟨S512x10, .f32⟩
  | .hbm, ⟨66, _⟩ => ⟨S512x10, .f32⟩
  | .hbm, ⟨67, _⟩ => ⟨S1x10, .f32⟩
  | .hbm, ⟨68, _⟩ => ⟨S512x10, .f32⟩
  | .hbm, ⟨69, _⟩ => ⟨S512x10, .f32⟩
  | .hbm, ⟨70, _⟩ => ⟨S_, .f32⟩
  | .hbm, ⟨71, _⟩ => ⟨S512x10, .f32⟩
  | .hbm, ⟨72, _⟩ => ⟨S512x10, .f32⟩
  | .hbm, ⟨73, _⟩ => ⟨S512x1, .f32⟩
  | .hbm, ⟨74, _⟩ => ⟨S1x1, .f32⟩
  | .hbm, ⟨75, _⟩ => ⟨S512x1, .f32⟩
  | .hbm, ⟨76, _⟩ => ⟨S512x1, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x64, .f32⟩
  | .local _ .vmem, ⟨5, _⟩ => ⟨S6400x64, .f32⟩
  | .local _ .vmem, ⟨6, _⟩ => ⟨S64x20, .bf16⟩
  | .local _ .vmem, ⟨7, _⟩ => ⟨S64x20, .bf16⟩
  | .local _ .vmem, ⟨8, _⟩ => ⟨S64x20, .bf16⟩
  | .local _ .vmem, ⟨9, _⟩ => ⟨S1x20, .f32⟩
  | .local _ .vmem, ⟨10, _⟩ => ⟨S6400x20, .f32⟩
  | .local _ .vmem, ⟨11, _⟩ => ⟨S6400x20, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call2_cst : Ref sig .tc := ⟨.hbm, 70, rfl⟩
abbrev main_call2_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x20 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x20 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S192x20_S64x20_0_0 : S192x20.Slices ![0, 0] S64x20
  bitsLt_bf16_f32 : FTy.bits .bf16 < FTy.bits .f32
  slices_S192x20_S64x20_64_0 : S192x20.Slices ![64, 0] S64x20
  slices_S192x20_S64x20_128_0 : S192x20.Slices ![128, 0] S64x20
  shapeCasts_S20_S1x20 : S20.ShapeCasts S1x20
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x20_S64x20_0_0 : ∀ a, (![0, 0] : Fin 2 → Nat) a + S64x20.size a ≤ S64x20.size a
  h_S64x20 : 0 < S64x20.numel
  shapeCasts_S64x20_S64x20 : S64x20.ShapeCasts S64x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S6400x20 : S1x20.Broadcasts S6400x20
  inb_S6400x20_S6400x20_0_0 : ∀ a, (![0, 0] : Fin 2 → Nat) a + S6400x20.size a ≤ S6400x20.size a
  h_S6400x20 : 0 < S6400x20.numel
  bcast_S_S50000x20 : S_.BroadcastsInDim S50000x20 (![] : Fin 0 → Fin S50000x20.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S50000x10 : S_.BroadcastsInDim S50000x10 (![] : Fin 0 → Fin S50000x10.rank)
  bcast_S_S512x10 : S_.BroadcastsInDim S512x10 (![] : Fin 0 → Fin S512x10.rank)
  bcast_S50000_S50000x1_0 : S50000.BroadcastsInDim S50000x1 (![0] : Fin 1 → Fin S50000x1.rank)
  bcast_S1x10_S512x10_0_1 : S1x10.BroadcastsInDim S512x10 (![0, 1] : Fin 2 → Fin S512x10.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x64_S800000x1_S800000x64_1_0_n_n_0_1_164_wf : GatherDims.WF S50000x64 S800000x1 S800000x64 [1] [0] [] [0] [] 1 ![1, 64]
  dot_S6400x64_S64x20_S6400x20_1_0_0_1_n_n_wf : DotDims.WF S6400x64 S64x20 S6400x20 [1] [0] [0] [1] [] []
  scatter_S50000x20_S800000x1_S800000x20_1_0_0_1_wf : ScatterDims.WF S50000x20 S800000x1 S800000x20 [1] [0] [0] 1
  dot_S50000x20_S20x20_S50000x20_1_0_0_1_n_n_wf : DotDims.WF S50000x20 S20x20 S50000x20 [1] [0] [0] [1] [] []
  dot_S50000x20_S20x10_S50000x10_1_0_0_1_n_n_wf : DotDims.WF S50000x20 S20x10 S50000x10 [1] [0] [0] [1] [] []
  scatter_S512x10_S50000x1_S50000x10_1_0_0_1_wf : ScatterDims.WF S512x10 S50000x1 S50000x10 [1] [0] [0] 1
  dot_S512x10_S10x10_S512x10_1_0_0_1_n_n_wf : DotDims.WF S512x10 S10x10 S512x10 [1] [0] [0] [1] [] []
  dot_S512x10_S10x1_S512x1_1_0_0_1_n_n_wf : DotDims.WF S512x10 S10x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S800000x64.size a
  hwx0_2 : ∀ i : grid0.Coords, EltTy.bits .f32 = 32 ∨ (Rect.block (s := S800000x64) S6400x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x20.size a ≤ S64x20.size a
  hwx0_3 : ∀ i : grid0.Coords, EltTy.bits .bf16 = 32 ∨ (Rect.block (s := S64x20) S64x20.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x20.size a ≤ S64x20.size a
  hwx0_4 : ∀ i : grid0.Coords, EltTy.bits .bf16 = 32 ∨ (Rect.block (s := S64x20) S64x20.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x20.size a ≤ S64x20.size a
  hwx0_5 : ∀ i : grid0.Coords, EltTy.bits .bf16 = 32 ∨ (Rect.block (s := S64x20) S64x20.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x20.size a ≤ S800000x20.size a
  hwx0_7 : ∀ i : grid0.Coords, EltTy.bits .f32 = 32 ∨ (Rect.block (s := S800000x20) S6400x20.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x20_S6400x20_1_0_0_1_n_n : DotDims S6400x64 S64x20 S6400x20 where
  lhsContracting := [1]
  rhsContracting := [0]
  lhsNonContracting := [0]
  rhsNonContracting := [1]
  lhsBatch := []
  rhsBatch := []
  wf := dot_S6400x64_S64x20_S6400x20_1_0_0_1_n_n_wf
def scatter_S50000x20_S800000x1_S800000x20_1_0_0_1 : ScatterDims S50000x20 S800000x1 S800000x20 where
  updateWindowDims := [1]
  insertedWindowDims := [0]
  scatterDimsToOperandDims := [0]
  indexVectorDim := 1
  wf := scatter_S50000x20_S800000x1_S800000x20_1_0_0_1_wf
def dot_S50000x20_S20x20_S50000x20_1_0_0_1_n_n : DotDims S50000x20 S20x20 S50000x20 where
  lhsContracting := [1]
  rhsContracting := [0]
  lhsNonContracting := [0]
  rhsNonContracting := [1]
  lhsBatch := []
  rhsBatch := []
  wf := dot_S50000x20_S20x20_S50000x20_1_0_0_1_n_n_wf
def dot_S50000x20_S20x10_S50000x10_1_0_0_1_n_n : DotDims S50000x20 S20x10 S50000x10 where
  lhsContracting := [1]
  rhsContracting := [0]
  lhsNonContracting := [0]
  rhsNonContracting := [1]
  lhsBatch := []
  rhsBatch := []
  wf := dot_S50000x20_S20x10_S50000x10_1_0_0_1_n_n_wf
def scatter_S512x10_S50000x1_S50000x10_1_0_0_1 : ScatterDims S512x10 S50000x1 S50000x10 where
  updateWindowDims := [1]
  insertedWindowDims := [0]
  scatterDimsToOperandDims := [0]
  indexVectorDim := 1
  wf := scatter_S512x10_S50000x1_S50000x10_1_0_0_1_wf
def dot_S512x10_S10x10_S512x10_1_0_0_1_n_n : DotDims S512x10 S10x10 S512x10 where
  lhsContracting := [1]
  rhsContracting := [0]
  lhsNonContracting := [0]
  rhsNonContracting := [1]
  lhsBatch := []
  rhsBatch := []
  wf := dot_S512x10_S10x10_S512x10_1_0_0_1_n_n_wf
def dot_S512x10_S10x1_S512x1_1_0_0_1_n_n : DotDims S512x10 S10x1 S512x1 where
  lhsContracting := [1]
  rhsContracting := [0]
  lhsNonContracting := [0]
  rhsNonContracting := [1]
  lhsBatch := []
  rhsBatch := []
  wf := dot_S512x10_S10x1_S512x1_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S6400x20.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S800000x64 : Shape := ⟨2, ![800000, 64]⟩
abbrev S50000 : Shape := ⟨1, ![50000]⟩
abbrev S192x20 : Shape := ⟨2, ![192, 20]⟩
abbrev S20 : Shape := ⟨1, ![20]⟩
abbrev S20x20 : Shape := ⟨2, ![20, 20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x20 : Shape := ⟨2, ![800000, 20]⟩
abbrev S1x20 : Shape := ⟨2, ![1, 20]⟩
abbrev S50000x20 : Shape := ⟨2, ![50000, 20]⟩
abbrev S50000x10 : Shape := ⟨2, ![50000, 10]⟩
abbrev S1x10 : Shape := ⟨2, ![1, 10]⟩
abbrev S512x10 : Shape := ⟨2, ![512, 10]⟩
abbrev S50000x1 : Shape := ⟨2, ![50000, 1]⟩
abbrev S512x1 : Shape := ⟨2, ![512, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x64, .f32⟩
  | .hbm, ⟨3, _⟩ => ⟨S50000, .i32⟩
  | .hbm, ⟨4, _⟩ => ⟨S192x20, .f32⟩
  | .hbm, ⟨5, _⟩ => ⟨S20, .f32⟩
  | .hbm, ⟨6, _⟩ => ⟨S20x20, .f32⟩
  | .hbm, ⟨7, _⟩ => ⟨S20, .f32⟩
  | .hbm, ⟨8, _⟩ => ⟨S20x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S10x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x192, .f32⟩
  | .hbm, ⟨37, _⟩ => ⟨S800000x20, .f32⟩
  | .hbm, ⟨38, _⟩ => ⟨S1x20, .f32⟩
  | .hbm, ⟨39, _⟩ => ⟨S800000x20, .f32⟩
  | .hbm, ⟨40, _⟩ => ⟨S800000x20, .f32⟩
  | .hbm, ⟨41, _⟩ => ⟨S_, .f32⟩
  | .hbm, ⟨42, _⟩ => ⟨S800000x20, .f32⟩
  | .hbm, ⟨43, _⟩ => ⟨S800000x20, .f32⟩
  | .hbm, ⟨44, _⟩ => ⟨S_, .f32⟩
  | .hbm, ⟨45, _⟩ => ⟨S50000x20, .f32⟩
  | .hbm, ⟨46, _⟩ => ⟨S800000x1, .i32⟩
  | .hbm, ⟨47, _⟩ => ⟨S50000x20, .f32⟩
  | .hbm, ⟨48, _⟩ => ⟨S50000x20, .f32⟩
  | .hbm, ⟨49, _⟩ => ⟨S1x20, .f32⟩
  | .hbm, ⟨50, _⟩ => ⟨S50000x20, .f32⟩
  | .hbm, ⟨51, _⟩ => ⟨S50000x20, .f32⟩
  | .hbm, ⟨52, _⟩ => ⟨S_, .f32⟩
  | .hbm, ⟨53, _⟩ => ⟨S50000x20, .f32⟩
  | .hbm, ⟨54, _⟩ => ⟨S50000x20, .f32⟩
  | .hbm, ⟨55, _⟩ => ⟨S50000x10, .f32⟩
  | .hbm, ⟨56, _⟩ => ⟨S1x10, .f32⟩
  | .hbm, ⟨57, _⟩ => ⟨S50000x10, .f32⟩
  | .hbm, ⟨58, _⟩ => ⟨S50000x10, .f32⟩
  | .hbm, ⟨59, _⟩ => ⟨S_, .f32⟩
  | .hbm, ⟨60, _⟩ => ⟨S50000x10, .f32⟩
  | .hbm, ⟨61, _⟩ => ⟨S50000x10, .f32⟩
  | .hbm, ⟨62, _⟩ => ⟨S_, .f32⟩
  | .hbm, ⟨63, _⟩ => ⟨S512x10, .f32⟩
  | .hbm, ⟨64, _⟩ => ⟨S50000x1, .i32⟩
  | .hbm, ⟨65, _⟩ => ⟨S512x10, .f32⟩
  | .hbm, ⟨66, _⟩ => ⟨S512x10, .f32⟩
  | .hbm, ⟨67, _⟩ => ⟨S1x10, .f32⟩
  | .hbm, ⟨68, _⟩ => ⟨S512x10, .f32⟩
  | .hbm, ⟨69, _⟩ => ⟨S512x10, .f32⟩
  | .hbm, ⟨70, _⟩ => ⟨S_, .f32⟩
  | .hbm, ⟨71, _⟩ => ⟨S512x10, .f32⟩
  | .hbm, ⟨72, _⟩ => ⟨S512x10, .f32⟩
  | .hbm, ⟨73, _⟩ => ⟨S512x1, .f32⟩
  | .hbm, ⟨74, _⟩ => ⟨S1x1, .f32⟩
  | .hbm, ⟨75, _⟩ => ⟨S512x1, .f32⟩
  | .hbm, ⟨76, _⟩ => ⟨S512x1, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call3_cst : Ref sig .tc := ⟨.hbm, 70, rfl⟩
abbrev main_call3_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S20_S1x20_1 : S20.BroadcastsInDim S1x20 (![1] : Fin 1 → Fin S1x20.rank)
  bcast_S1x20_S800000x20_0_1 : S1x20.BroadcastsInDim S800000x20 (![0, 1] : Fin 2 → Fin S800000x20.rank)
  bcast_S_S800000x20 : S_.BroadcastsInDim S800000x20 (![] : Fin 0 → Fin S800000x20.rank)
  bcast_S_S50000x20 : S_.BroadcastsInDim S50000x20 (![] : Fin 0 → Fin S50000x20.rank)
  bcast_S1x20_S50000x20_0_1 : S1x20.BroadcastsInDim S50000x20 (![0, 1] : Fin 2 → Fin S50000x20.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S50000x10 : S_.BroadcastsInDim S50000x10 (![] : Fin 0 → Fin S50000x10.rank)
  bcast_S_S512x10 : S_.BroadcastsInDim S512x10 (![] : Fin 0 → Fin S512x10.rank)
  bcast_S50000_S50000x1_0 : S50000.BroadcastsInDim S50000x1 (![0] : Fin 1 → Fin S50000x1.rank)
  bcast_S1x10_S512x10_0_1 : S1x10.BroadcastsInDim S512x10 (![0, 1] : Fin 2 → Fin S512x10.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x64_S800000x1_S800000x64_1_0_n_n_0_1_164_wf : GatherDims.WF S50000x64 S800000x1 S800000x64 [1] [0] [] [0] [] 1 ![1, 64]
  dot_S800000x192_S192x20_S800000x20_1_0_0_1_n_n_wf : DotDims.WF S800000x192 S192x20 S800000x20 [1] [0] [0] [1] [] []
  scatter_S50000x20_S800000x1_S800000x20_1_0_0_1_wf : ScatterDims.WF S50000x20 S800000x1 S800000x20 [1] [0] [0] 1
  dot_S50000x20_S20x20_S50000x20_1_0_0_1_n_n_wf : DotDims.WF S50000x20 S20x20 S50000x20 [1] [0] [0] [1] [] []
  dot_S50000x20_S20x10_S50000x10_1_0_0_1_n_n_wf : DotDims.WF S50000x20 S20x10 S50000x10 [1] [0] [0] [1] [] []
  scatter_S512x10_S50000x1_S50000x10_1_0_0_1_wf : ScatterDims.WF S512x10 S50000x1 S50000x10 [1] [0] [0] 1
  dot_S512x10_S10x10_S512x10_1_0_0_1_n_n_wf : DotDims.WF S512x10 S10x10 S512x10 [1] [0] [0] [1] [] []
  dot_S512x10_S10x1_S512x1_1_0_0_1_n_n_wf : DotDims.WF S512x10 S10x1 S512x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x20_S800000x20_1_0_0_1_n_n : DotDims S800000x192 S192x20 S800000x20 where
  lhsContracting := [1]
  rhsContracting := [0]
  lhsNonContracting := [0]
  rhsNonContracting := [1]
  lhsBatch := []
  rhsBatch := []
  wf := dot_S800000x192_S192x20_S800000x20_1_0_0_1_n_n_wf
def scatter_S50000x20_S800000x1_S800000x20_1_0_0_1 : ScatterDims S50000x20 S800000x1 S800000x20 where
  updateWindowDims := [1]
  insertedWindowDims := [0]
  scatterDimsToOperandDims := [0]
  indexVectorDim := 1
  wf := scatter_S50000x20_S800000x1_S800000x20_1_0_0_1_wf
def dot_S50000x20_S20x20_S50000x20_1_0_0_1_n_n : DotDims S50000x20 S20x20 S50000x20 where
  lhsContracting := [1]
  rhsContracting := [0]
  lhsNonContracting := [0]
  rhsNonContracting := [1]
  lhsBatch := []
  rhsBatch := []
  wf := dot_S50000x20_S20x20_S50000x20_1_0_0_1_n_n_wf
def dot_S50000x20_S20x10_S50000x10_1_0_0_1_n_n : DotDims S50000x20 S20x10 S50000x10 where
  lhsContracting := [1]
  rhsContracting := [0]
  lhsNonContracting := [0]
  rhsNonContracting := [1]
  lhsBatch := []
  rhsBatch := []
  wf := dot_S50000x20_S20x10_S50000x10_1_0_0_1_n_n_wf
def scatter_S512x10_S50000x1_S50000x10_1_0_0_1 : ScatterDims S512x10 S50000x1 S50000x10 where
  updateWindowDims := [1]
  insertedWindowDims := [0]
  scatterDimsToOperandDims := [0]
  indexVectorDim := 1
  wf := scatter_S512x10_S50000x1_S50000x10_1_0_0_1_wf
def dot_S512x10_S10x10_S512x10_1_0_0_1_n_n : DotDims S512x10 S10x10 S512x10 where
  lhsContracting := [1]
  rhsContracting := [0]
  lhsNonContracting := [0]
  rhsNonContracting := [1]
  lhsBatch := []
  rhsBatch := []
  wf := dot_S512x10_S10x10_S512x10_1_0_0_1_n_n_wf
def dot_S512x10_S10x1_S512x1_1_0_0_1_n_n : DotDims S512x10 S10x1 S512x1 where
  lhsContracting := [1]
  rhsContracting := [0]
  lhsNonContracting := [0]
  rhsNonContracting := [1]
  lhsBatch := []
  rhsBatch := []
  wf := dot_S512x10_S10x1_S512x1_1_0_0_1_n_n_wf

class Facts : Prop extends Facts₀ where

variable [Facts]
-- ==== Proof.Readout.lean ====
/-
  What both programs do with the messages.

  From the 800000×20 message array both programs go on the same way: the messages are summed into their destination
  nodes (a scatter-add into a zero 50000×20 array by the destination index of each edge), two dense layers with
  bias and maximum with zero follow, the 50000×10 node features are summed into their graphs (a scatter-add into a
  zero 512×10 array by the graph index of each node), then a dense layer with bias and maximum with zero and a last
  dense layer with bias give the 512×1 result. That common part is named here as one function of the message array,
  the destination indices and the parameter arrays, so that the two programs' results can be compared through it
  without ever opening it.
-/
import proofs.«128394_j64630667870278_1_alg».proof.Proof.Gen.ReferenceIdeal
import Idealize.ShloMosaic.PureOps.Ideal

noncomputable section

namespace Cert.ReferenceIdeal.Readout

open Cert.ReferenceIdeal Cert.ReferenceIdeal.Gen Idealize.ShloMosaic

variable {F : FTy → Type} [FloatOps F]

/-- Messages to result: node aggregation, two layers, graph aggregation, two layers. -/
def readout (msg : (⟨S800000x20, .f32⟩ : BufTy).Contents (Elt F)) (dst : (⟨S800000, .i32⟩ : BufTy).Contents (Elt F))
    (x3 : (⟨S50000, .i32⟩ : BufTy).Contents (Elt F))
    (x6 : (⟨S20x20, .f32⟩ : BufTy).Contents (Elt F)) (x7 : (⟨S20, .f32⟩ : BufTy).Contents (Elt F))
    (x8 : (⟨S20x10, .f32⟩ : BufTy).Contents (Elt F)) (x9 : (⟨S10, .f32⟩ : BufTy).Contents (Elt F))
    (x10 : (⟨S10x10, .f32⟩ : BufTy).Contents (Elt F)) (x11 : (⟨S10, .f32⟩ : BufTy).Contents (Elt F))
    (x12 : (⟨S10x1, .f32⟩ : BufTy).Contents (Elt F)) (x13 : (⟨S1, .f32⟩ : BufTy).Contents (Elt F)) :
    (⟨S512x1, .f32⟩ : BufTy).Contents (Elt F) :=
  addf (Host.dotGeneral (F := F) dot_S512x10_S10x1_S512x1_1_0_0_1_n_n none (maximumf (addf (Host.dotGeneral (F := F) dot_S512x10_S10x10_S512x10_1_0_0_1_n_n none (Host.scatterAdd (F := F) scatter_S512x10_S50000x1_S50000x10_1_0_0_1 (broadcastInDim S512x10 ![] bcast_S_S512x10 (constant (F := F) S_ .f32 0x00000000#32)) (broadcastInDim S50000x1 ![0] bcast_S50000_S50000x1_0 x3) (maximumf (addf (Host.dotGeneral (F := F) dot_S50000x20_S20x10_S50000x10_1_0_0_1_n_n none (maximumf (addf (Host.dotGeneral (F := F) dot_S50000x20_S20x20_S50000x20_1_0_0_1_n_n none (Host.scatterAdd (F := F) scatter_S50000x20_S800000x1_S800000x20_1_0_0_1 (broadcastInDim S50000x20 ![] bcast_S_S50000x20 (constant (F := F) S_ .f32 0x00000000#32)) (broadcastInDim S800000x1 ![0] bcast_S800000_S800000x1_0 dst) msg) x6) (broadcastInDim S50000x20 ![0, 1] bcast_S1x20_S50000x20_0_1 (broadcastInDim S1x20 ![1] bcast_S20_S1x20_1 x7))) (broadcastInDim S50000x20 ![] bcast_S_S50000x20 (constant (F := F) S_ .f32 0x00000000#32))) x8) (broadcastInDim S50000x10 ![0, 1] bcast_S1x10_S50000x10_0_1 (broadcastInDim S1x10 ![1] bcast_S10_S1x10_1 x9))) (broadcastInDim S50000x10 ![] bcast_S_S50000x10 (constant (F := F) S_ .f32 0x00000000#32)))) x10) (broadcastInDim S512x10 ![0, 1] bcast_S1x10_S512x10_0_1 (broadcastInDim S1x10 ![1] bcast_S10_S1x10_1 x11))) (broadcastInDim S512x10 ![] bcast_S_S512x10 (constant (F := F) S_ .f32 0x00000000#32))) x12) (broadcastInDim S512x1 ![0, 1] bcast_S1x1_S512x1_0_1 (broadcastInDim S1x1 ![1] bcast_S1_S1x1_1 x13))

end Cert.ReferenceIdeal.Readout

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.EdgeMessage.lean ====
/-
  One block of messages, entry by entry.

  For a block of 6400 edges the body forms, from the three 6400×64 feature blocks (source node, destination node, edge)
  and the three 64×20 weight blocks, the sum of the three matrix products, adds the bias row and takes the maximum
  with zero. On the extended reals a change of float format is the identity and each product into the zero
  accumulator is the plain sum over the 64 contracted coordinates, so entry (p, q) of the block is

      max (Σ_κ xs(p,κ)·ws(κ,q) + Σ_κ xd(p,κ)·wd(κ,q) + Σ_κ xe(p,κ)·we(κ,q) + b(0,q), 0).
-/
import proofs.«128394_j64630667870278_1_alg».proof.Proof.Gen.KernelIdeal.Skeleton
import proofs.«128394_j64630667870278_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.EdgeMessage

open Cert.KernelIdeal Cert.KernelIdeal.Gen Idealize.ShloMosaic Idealize.ShloMosaic.ValueIdx

/-- The block product contracts the feature axis of the left block with the row axis of the weights; no batch axes. -/
theorem blockDot_plain : PlainDot.IsPlain dot_S6400x64_S64x20_S6400x20_1_0_0_1_n_n := ⟨rfl, rfl, rfl, rfl, rfl, rfl⟩

/-- Entry (p, q) of the block the body stores. -/
theorem payload_apply (xs xd xe : Vec Ideal S6400x64 .f32) (ws wd we : Vec Ideal S64x20 .bf16) (b : Vec Ideal S1x20 .f32)
    (p : Fin 6400) (q : Fin 20) :
    k0_pay1 (F := Ideal) xs xd xe ws wd we b (ix2 p q)
      = max ((((∑ κ : Fin 64, xs (ix2 p κ) * ws (ix2 κ q)) + ∑ κ : Fin 64, xd (ix2 p κ) * wd (ix2 κ q))
              + ∑ κ : Fin 64, xe (ix2 p κ) * we (ix2 κ q)) + b (ix2 (0 : Fin 1) q))
          (Ideal.ofBits .f32 0x00000000#32) := by
  unfold k0_pay1
  simp only [shapeCast_self]
  show max (((FloatOps.matmul (F := Ideal) dot_S6400x64_S64x20_S6400x20_1_0_0_1_n_n none (truncf (F := Ideal) .bf16 xs bitsLt_bf16_f32) ws (constant (F := Ideal) S6400x20 .f32 0x00000000#32) (ix2 p q)
        + FloatOps.matmul (F := Ideal) dot_S6400x64_S64x20_S6400x20_1_0_0_1_n_n none (truncf (F := Ideal) .bf16 xd bitsLt_bf16_f32) wd (constant (F := Ideal) S6400x20 .f32 0x00000000#32) (ix2 p q))
        + FloatOps.matmul (F := Ideal) dot_S6400x64_S64x20_S6400x20_1_0_0_1_n_n none (truncf (F := Ideal) .bf16 xe bitsLt_bf16_f32) we (constant (F := Ideal) S6400x20 .f32 0x00000000#32) (ix2 p q))
        + broadcastTo S6400x20 b broadcasts_S1x20_S6400x20 (ix2 p q)) (Ideal.ofBits .f32 0x00000000#32) = _
  rw [PlainDot.matmul_zero_plain _ blockDot_plain, PlainDot.matmul_zero_plain _ blockDot_plain,
    PlainDot.matmul_zero_plain _ blockDot_plain,
    broadcastTo_apply b broadcasts_S1x20_S6400x20 (ix2 p q) (ix2 (0 : Fin 1) q) (fun a => by
      match a with
      | ⟨0, _⟩ => rfl
      | ⟨1, _⟩ => rfl)]
  rfl

end Cert.KernelIdeal.EdgeMessage

end
-- ==== Proof.MessageArray.lean ====
/-
  The message array after the pipelined region.

  Grid point t (of 125) writes rows 6400·t … 6400·t + 6399 of the 800000×20 message array; its three feature blocks
  are the same rows of the two gathered node-feature arrays and of the edge-feature array, while the three weight
  blocks and the bias row are whole arrays at every point. Hence what point t writes back is block t of ONE function
  of the seven arrays the region reads, the blocks tile the rows, and after the run the array holds that function:
  entry (e, j) is

      max (Σ_κ gs(e,κ)·ws(κ,j) + Σ_κ gd(e,κ)·wd(κ,j) + Σ_κ ea(e,κ)·we(κ,j) + b(0,j), 0).
-/
import proofs.«128394_j64630667870278_1_alg».proof.Proof.Gen.KernelIdeal.Frame
import proofs.«128394_j64630667870278_1_alg».proof.Proof.EdgeMessage
import Idealize.ShloMosaic.Lib.Pipeline.Value

noncomputable section

open scoped BigOperators

namespace Cert.KernelIdeal.MessageArray

open Cert.KernelIdeal Cert.KernelIdeal.Gen Idealize.ShloMosaic Idealize.ShloMosaic.TcCoe Idealize.SL.Sem
open Idealize.ShloMosaic.ValueIdx
open Idealize.ShloMosaic.Pipeline (Dat)

/-- The messages of all 800000 edges as one function of the arrays the region reads. -/
def messages (gs gd ea : S800000x64.Idx → EReal) (ws wd we : S64x20.Idx → EReal) (b : S1x20.Idx → EReal) :
    S800000x20.Idx → EReal := fun i =>
  max ((((∑ κ : Fin 64, gs (ix2 (i 0) κ) * ws (ix2 κ (i 1))) + ∑ κ : Fin 64, gd (ix2 (i 0) κ) * wd (ix2 κ (i 1)))
          + ∑ κ : Fin 64, ea (ix2 (i 0) κ) * we (ix2 κ (i 1))) + b (ix2 (0 : Fin 1) (i 1)))
      (Ideal.ofBits .f32 0x00000000#32)

/-- A stored block at any of its indices, by its two coordinates. -/
theorem block_entry (xs xd xe : Vec Ideal S6400x64 .f32) (ws wd we : Vec Ideal S64x20 .bf16) (b : Vec Ideal S1x20 .f32)
    (j : S6400x20.Idx) :
    k0_pay1 (F := Ideal) xs xd xe ws wd we b j
      = max ((((∑ κ : Fin 64, xs (ix2 (j 0) κ) * ws (ix2 κ (j 1))) + ∑ κ : Fin 64, xd (ix2 (j 0) κ) * wd (ix2 κ (j 1)))
              + ∑ κ : Fin 64, xe (ix2 (j 0) κ) * we (ix2 κ (j 1))) + b (ix2 (0 : Fin 1) (j 1)))
          (Ideal.ofBits .f32 0x00000000#32) :=
  (congrArg (k0_pay1 (F := Ideal) xs xd xe ws wd we b) (eq_ix2 j)).trans (EdgeMessage.payload_apply xs xd xe ws wd we b (j 0) (j 1))

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 125 grid points: the feature windows and the output window sit at block row t and
    block column 0; the weight and bias windows at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

set_option maxHeartbeats 1600000 in
/-- What point t writes back is block t of `messages` of the arrays as the region finds them. -/
theorem flushed_eq (c : Dev nD) (t : Fin cfg0.N) :
    (dats m 0 c).flushed 7 t = ((cfg0.win 7).blk t).view.read (Elt Ideal)
      (messages (V m c main_v10) (V m c main_v17) (V m c main_arg2) (V m c main_v19) (V m c main_v21) (V m c main_v23) (V m c main_v24)) := by
  show (cfg0.win 7).cut (grid0.coords t) ((dats m 0 c).after 7 t) = _
  rw [after0_7]
  unfold out0_7
  rw [View.canon_unit_zero zero_offsets]
  simp only [View.ld_unit_zero (S := S6400x64) zero_offsets, View.ld_unit_zero (S := S64x20) zero_offsets,
    View.ld_unit_zero (S := S1x20) zero_offsets]
  obtain ⟨a00, a01, a10, a11, a20, a21, a30, a31, a40, a41, a50, a51, a60, a61, a70, a71⟩ := index_maps t
  funext j
  show k0_pay1 (F := Ideal) (iblk m c 0 t) (iblk m c 1 t) (iblk m c 2 t) (iblk m c 3 t) (iblk m c 4 t) (iblk m c 5 t) (iblk m c 6 t) j
    = messages (V m c main_v10) (V m c main_v17) (V m c main_arg2) (V m c main_v19) (V m c main_v21) (V m c main_v23) (V m c main_v24)
        (((cfg0.win 7).blk t).view.emb j)
  refine (block_entry (iblk m c 0 t) (iblk m c 1 t) (iblk m c 2 t) (iblk m c 3 t) (iblk m c 4 t) (iblk m c 5 t) (iblk m c 6 t) j).trans ?_
  unfold messages
  have r0 : ∀ κ : Fin 64, iblk m c 0 t (ix2 (j 0) κ) = V m c main_v10 (ix2 ((((cfg0.win 7).blk t).view.emb j) 0) κ) := fun κ => by
    show V m c main_v10 (((cfg0.win 0).blk t).view.emb (ix2 (j 0) κ)) = _
    refine congrArg (V m c main_v10) (funext fun a => Fin.ext ?_)
    match a with
    | ⟨0, _⟩ => show win0_0.index t (0 : Fin 2) * 6400 + 1 * (j 0).val = win0_7.index t (0 : Fin 2) * 6400 + 1 * (j 0).val; omega
    | ⟨1, _⟩ => show win0_0.index t (1 : Fin 2) * 64 + 1 * κ.val = κ.val; omega
  have r1 : ∀ κ : Fin 64, iblk m c 1 t (ix2 (j 0) κ) = V m c main_v17 (ix2 ((((cfg0.win 7).blk t).view.emb j) 0) κ) := fun κ => by
    show V m c main_v17 (((cfg0.win 1).blk t).view.emb (ix2 (j 0) κ)) = _
    refine congrArg (V m c main_v17) (funext fun a => Fin.ext ?_)
    match a with
    | ⟨0, _⟩ => show win0_1.index t (0 : Fin 2) * 6400 + 1 * (j 0).val = win0_7.index t (0 : Fin 2) * 6400 + 1 * (j 0).val; omega
    | ⟨1, _⟩ => show win0_1.index t (1 : Fin 2) * 64 + 1 * κ.val = κ.val; omega
  have r2 : ∀ κ : Fin 64, iblk m c 2 t (ix2 (j 0) κ) = V m c main_arg2 (ix2 ((((cfg0.win 7).blk t).view.emb j) 0) κ) := fun κ => by
    show V m c main_arg2 (((cfg0.win 2).blk t).view.emb (ix2 (j 0) κ)) = _
    refine congrArg (V m c main_arg2) (funext fun a => Fin.ext ?_)
    match a with
    | ⟨0, _⟩ => show win0_2.index t (0 : Fin 2) * 6400 + 1 * (j 0).val = win0_7.index t (0 : Fin 2) * 6400 + 1 * (j 0).val; omega
    | ⟨1, _⟩ => show win0_2.index t (1 : Fin 2) * 64 + 1 * κ.val = κ.val; omega
  have r3 : ∀ κ : Fin 64, iblk m c 3 t (ix2 κ (j 1)) = V m c main_v19 (ix2 κ ((((cfg0.win 7).blk t).view.emb j) 1)) := fun κ => by
    show V m c main_v19 (((cfg0.win 3).blk t).view.emb (ix2 κ (j 1))) = _
    refine congrArg (V m c main_v19) (funext fun a => Fin.ext ?_)
    match a with
    | ⟨0, _⟩ => show win0_3.index t (0 : Fin 2) * 64 + 1 * κ.val = κ.val; omega
    | ⟨1, _⟩ => show win0_3.index t (1 : Fin 2) * 20 + 1 * (j 1).val = win0_7.index t (1 : Fin 2) * 20 + 1 * (j 1).val; omega
  have r4 : ∀ κ : Fin 64, iblk m c 4 t (ix2 κ (j 1)) = V m c main_v21 (ix2 κ ((((cfg0.win 7).blk t).view.emb j) 1)) := fun κ => by
    show V m c main_v21 (((cfg0.win 4).blk t).view.emb (ix2 κ (j 1))) = _
    refine congrArg (V m c main_v21) (funext fun a => Fin.ext ?_)
    match a with
    | ⟨0, _⟩ => show win0_4.index t (0 : Fin 2) * 64 + 1 * κ.val = κ.val; omega
    | ⟨1, _⟩ => show win0_4.index t (1 : Fin 2) * 20 + 1 * (j 1).val = win0_7.index t (1 : Fin 2) * 20 + 1 * (j 1).val; omega
  have r5 : ∀ κ : Fin 64, iblk m c 5 t (ix2 κ (j 1)) = V m c main_v23 (ix2 κ ((((cfg0.win 7).blk t).view.emb j) 1)) := fun κ => by
    show V m c main_v23 (((cfg0.win 5).blk t).view.emb (ix2 κ (j 1))) = _
    refine congrArg (V m c main_v23) (funext fun a => Fin.ext ?_)
    match a with
    | ⟨0, _⟩ => show win0_5.index t (0 : Fin 2) * 64 + 1 * κ.val = κ.val; omega
    | ⟨1, _⟩ => show win0_5.index t (1 : Fin 2) * 20 + 1 * (j 1).val = win0_7.index t (1 : Fin 2) * 20 + 1 * (j 1).val; omega
  have r6 : iblk m c 6 t (ix2 (0 : Fin 1) (j 1)) = V m c main_v24 (ix2 (0 : Fin 1) ((((cfg0.win 7).blk t).view.emb j) 1)) := by
    show V m c main_v24 (((cfg0.win 6).blk t).view.emb (ix2 (0 : Fin 1) (j 1))) = _
    refine congrArg (V m c main_v24) (funext fun a => Fin.ext ?_)
    match a with
    | ⟨0, _⟩ => show win0_6.index t (0 : Fin 2) * 1 + 1 * 0 = 0; omega
    | ⟨1, _⟩ => show win0_6.index t (1 : Fin 2) * 20 + 1 * (j 1).val = win0_7.index t (1 : Fin 2) * 20 + 1 * (j 1).val; omega
  simp only [r0, r1, r2, r3, r4, r5, r6]

/-- An index of the array is in point t's block iff each coordinate is in the block's range on its axis. -/
theorem mem_block (t : Fin cfg0.N) (i : S800000x20.Idx) :
    i ∈ ((cfg0.win 7).blk t).view.set ↔ ∀ a : Fin 2, win0_7.index t a * S6400x20.size a ≤ (i a).val ∧ (i a).val < win0_7.index t a * S6400x20.size a + S6400x20.size a := by
  show i ∈ ((View.whole main_v25).slice (win0_7.rect t)).set ↔ _
  rw [View.set_slice_whole, Rect.mem_set_unit]
  exact Iff.rfl

/-- Every row of the array lies in the block of the point numbered by the row over 6400. -/
theorem covered (i : S800000x20.Idx) : ∃ t : Fin cfg0.N, (cfg0.win 7).flush t = true ∧ i ∈ ((cfg0.win 7).blk t).view.set := by
  have hi0 : (i 0).val < 800000 := (i 0).isLt
  have hi1 : (i 1).val < 20 := (i 1).isLt
  have hN : cfg0.N = 125 := N_0
  let t : Fin cfg0.N := ⟨(i 0).val / 6400, by rw [hN]; omega⟩
  obtain ⟨a00, a01, a10, a11, a20, a21, a30, a31, a40, a41, a50, a51, a60, a61, a70, a71⟩ := index_maps t
  have ht : t.val = (i 0).val / 6400 := rfl
  refine ⟨t, flush0_7 t, ?_⟩
  rw [mem_block]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 20 ≤ (i 1).val ∧ (i 1).val < win0_7.index t (1 : Fin 2) * 20 + 20; omega

/-- The array after the run. -/
theorem final (c : Dev nD) :
    (dats m 0 c).arrAt 7 cfg0.N
      = messages (V m c main_v10) (V m c main_v17) (V m c main_arg2) (V m c main_v19) (V m c main_v21) (V m c main_v23) (V m c main_v24) :=
  (dats m 0 c).arrAt_eq_of_cover 7 _ (fun t _ => flushed_eq m c t) covered

end Cert.KernelIdeal.MessageArray

end
-- ==== Proof.KernelResult.lean ====
/-
  The kernel program's result as a function of its arguments.

  Before the region the program gathers the node features of each edge's source and destination, cuts the weight
  matrix into its three 64-row stretches and reshapes the bias to a row; the region then leaves the message array
  (`MessageArray.final`); after it the program applies the common readout. The arrays the region finds are
  therefore the same functions of the arguments that the reference program computes for its own gathers, and the
  result is the readout of the messages.
-/
import proofs.«128394_j64630667870278_1_alg».proof.Proof.Gen.KernelIdeal.Frame
import proofs.«128394_j64630667870278_1_alg».proof.Proof.Gen.ReferenceIdeal.Read
import proofs.«128394_j64630667870278_1_alg».proof.Proof.Readout
import proofs.«128394_j64630667870278_1_alg».proof.Proof.MessageArray
import Idealize.ShloMosaic.Lib.StableHlo.Run

set_option maxRecDepth 16384

noncomputable section

namespace Cert.KernelIdeal.KernelResult

open Cert.KernelIdeal Cert.KernelIdeal.Gen Idealize.ShloMosaic Idealize.ShloMosaic.TcCoe Idealize.SL.Sem
open Idealize.ShloMosaic.StableHlo
open Cert.ReferenceIdeal.Read (val_main_v3 val_main_v10 val_main_v17)
open Cert.ReferenceIdeal.Readout (readout)

variable {F : FTy → Type} [FloatOps F]
variable (m : (ℓ : Loc nD τ sig) → Buf (Elt F) ℓ) (ρ : Dev nD → PrngReg)

/-! ## The arrays the region finds -/

/-- The destination index of each edge: row 1 of the edge index array. -/
theorem V_dstIndex (c : Dev nD) :
    V m c main_v3 = val_main_v3 (F := F) (m ((c : Thread nD τ).loc main_arg0)) := by
  show StableHlo.after hostOps0 (fun b => m (c, b)) (Proc.devRef .tc main_v3) = _
  after_results
  rfl

/-- The node features gathered at each edge's source. -/
theorem V_srcFeatures (c : Dev nD) :
    V m c main_v10 = val_main_v10 (F := F) (m ((c : Thread nD τ).loc main_arg0)) (m ((c : Thread nD τ).loc main_arg1)) := by
  show StableHlo.after hostOps0 (fun b => m (c, b)) (Proc.devRef .tc main_v10) = _
  after_results
  rfl

set_option maxHeartbeats 2000000 in
/-- The node features gathered at each edge's destination. -/
theorem V_dstFeatures (c : Dev nD) :
    V m c main_v17 = val_main_v17 (F := F) (m ((c : Thread nD τ).loc main_arg0)) (m ((c : Thread nD τ).loc main_arg1)) := by
  show StableHlo.after hostOps0 (fun b => m (c, b)) (Proc.devRef .tc main_v17) = _
  after_results_simp
  rfl

/-- Rows 0..63 of the weight matrix, in the narrower format. -/
theorem V_wSrc (c : Dev nD) :
    V m c main_v19 = truncf .bf16 (extractStridedSlice S64x20 ![0, 0] (m ((c : Thread nD τ).loc main_arg4)) slices_S192x20_S64x20_0_0) bitsLt_bf16_f32 := by
  show StableHlo.after hostOps0 (fun b => m (c, b)) (Proc.devRef .tc main_v19) = _
  after_results

/-- Rows 64..127 of the weight matrix, in the narrower format. -/
theorem V_wDst (c : Dev nD) :
    V m c main_v21 = truncf .bf16 (extractStridedSlice S64x20 ![64, 0] (m ((c : Thread nD τ).loc main_arg4)) slices_S192x20_S64x20_64_0) bitsLt_bf16_f32 := by
  show StableHlo.after hostOps0 (fun b => m (c, b)) (Proc.devRef .tc main_v21) = _
  after_results

/-- Rows 128..191 of the weight matrix, in the narrower format. -/
theorem V_wEdge (c : Dev nD) :
    V m c main_v23 = truncf .bf16 (extractStridedSlice S64x20 ![128, 0] (m ((c : Thread nD τ).loc main_arg4)) slices_S192x20_S64x20_128_0) bitsLt_bf16_f32 := by
  show StableHlo.after hostOps0 (fun b => m (c, b)) (Proc.devRef .tc main_v23) = _
  after_results

/-- The bias as a 1×20 row. -/
theorem V_biasRow (c : Dev nD) :
    V m c main_v24 = shapeCast S1x20 (m ((c : Thread nD τ).loc main_arg5)) shapeCasts_S20_S1x20 := by
  show StableHlo.after hostOps0 (fun b => m (c, b)) (Proc.devRef .tc main_v24) = _
  after_results
  rfl

/-! ## After the region -/

set_option maxHeartbeats 8000000 in
/-- The result buffer after the lines that follow the region: the readout of the array the region left. -/
theorem tail_eq (c : Dev nD) :
    Pipeline.afterTail₀ cfgs (dats m) 0 (V0 m) [hostOps1, hostOps1_1, hostOps1_2, hostOps1_3, hostOps1_4, hostOps1_5, hostOps1_6] c main_v50
      = readout (F := F) ((dats m 0 c).arrAt 7 cfg0.N) (V m c main_v3) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hmsg : Pipeline.withArrays spec0 c (V0 m c) (fun w => (dats m 0 c).arrAt w cfg0.N) (Proc.devRef .tc main_v25) = (dats m 0 c).arrAt 7 cfg0.N :=
    Pipeline.withArrays_arr spec0 launch0.win.arr_inj c _ _ 7
  have hdst : Pipeline.withArrays spec0 c (V0 m c) (fun w => (dats m 0 c).arrAt w cfg0.N) (Proc.devRef .tc main_v3) = V m c main_v3 :=
    Pipeline.withArrays_of_ne _ c (V0 m c) _ main_v3 (by exact (by decide : ∀ w, Pipeline.arrRef spec0 w ≠ main_v3))
  have h3 : Pipeline.withArrays spec0 c (V0 m c) (fun w => (dats m 0 c).arrAt w cfg0.N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have h6 : Pipeline.withArrays spec0 c (V0 m c) (fun w => (dats m 0 c).arrAt w cfg0.N) (Proc.devRef .tc main_arg6) = m ((c : Thread nD τ).loc main_arg6) :=
    (Pipeline.withArrays_of_ne _ c (V0 m c) _ main_arg6 (by exact (by decide : ∀ w, Pipeline.arrRef spec0 w ≠ main_arg6))).trans (V_main_arg6 m c)
  have h7 : Pipeline.withArrays spec0 c (V0 m c) (fun w => (dats m 0 c).arrAt w cfg0.N) (Proc.devRef .tc main_arg7) = m ((c : Thread nD τ).loc main_arg7) :=
    (Pipeline.withArrays_of_ne _ c (V0 m c) _ main_arg7 (by exact (by decide : ∀ w, Pipeline.arrRef spec0 w ≠ main_arg7))).trans (V_main_arg7 m c)
  have h8 : Pipeline.withArrays spec0 c (V0 m c) (fun w => (dats m 0 c).arrAt w cfg0.N) (Proc.devRef .tc main_arg8) = m ((c : Thread nD τ).loc main_arg8) :=
    (Pipeline.withArrays_of_ne _ c (V0 m c) _ main_arg8 (by exact (by decide : ∀ w, Pipeline.arrRef spec0 w ≠ main_arg8))).trans (V_main_arg8 m c)
  have h9 : Pipeline.withArrays spec0 c (V0 m c) (fun w => (dats m 0 c).arrAt w cfg0.N) (Proc.devRef .tc main_arg9) = m ((c : Thread nD τ).loc main_arg9) :=
    (Pipeline.withArrays_of_ne _ c (V0 m c) _ main_arg9 (by exact (by decide : ∀ w, Pipeline.arrRef spec0 w ≠ main_arg9))).trans (V_main_arg9 m c)
  have h10 : Pipeline.withArrays spec0 c (V0 m c) (fun w => (dats m 0 c).arrAt w cfg0.N) (Proc.devRef .tc main_arg10) = m ((c : Thread nD τ).loc main_arg10) :=
    (Pipeline.withArrays_of_ne _ c (V0 m c) _ main_arg10 (by exact (by decide : ∀ w, Pipeline.arrRef spec0 w ≠ main_arg10))).trans (V_main_arg10 m c)
  have h11 : Pipeline.withArrays spec0 c (V0 m c) (fun w => (dats m 0 c).arrAt w cfg0.N) (Proc.devRef .tc main_arg11) = m ((c : Thread nD τ).loc main_arg11) :=
    (Pipeline.withArrays_of_ne _ c (V0 m c) _ main_arg11 (by exact (by decide : ∀ w, Pipeline.arrRef spec0 w ≠ main_arg11))).trans (V_main_arg11 m c)
  have h12 : Pipeline.withArrays spec0 c (V0 m c) (fun w => (dats m 0 c).arrAt w cfg0.N) (Proc.devRef .tc main_arg12) = m ((c : Thread nD τ).loc main_arg12) :=
    (Pipeline.withArrays_of_ne _ c (V0 m c) _ main_arg12 (by exact (by decide : ∀ w, Pipeline.arrRef spec0 w ≠ main_arg12))).trans (V_main_arg12 m c)
  have h13 : Pipeline.withArrays spec0 c (V0 m c) (fun w => (dats m 0 c).arrAt w cfg0.N) (Proc.devRef .tc main_arg13) = m ((c : Thread nD τ).loc main_arg13) :=
    (Pipeline.withArrays_of_ne _ c (V0 m c) _ main_arg13 (by exact (by decide : ∀ w, Pipeline.arrRef spec0 w ≠ main_arg13))).trans (V_main_arg13 m c)
  unfold Pipeline.afterTail₀
  simp only [hostOps1, hostOps1_1, hostOps1_2, hostOps1_3, hostOps1_4, hostOps1_5, hostOps1_6, List.flatten_cons, List.flatten_nil,
    List.append_nil, List.cons_append, List.nil_append]
  after_results_simp
  rw [hmsg, hdst, h3, h6, h7, h8, h9, h10, h11, h12, h13]
  rfl

end Cert.KernelIdeal.KernelResult

end
-- ==== Proof.ThreeBlocks.lean ====
/-
  A sum over 192 coordinates is the sum of its three consecutive stretches of 64.

  Holds in any commutative additive monoid, so in particular on the extended reals, where only the associativity and
  the commutativity of addition are used (no cancellation, hence no finiteness).
-/
import Mathlib.Algebra.BigOperators.Fin

open scoped BigOperators

namespace Cert.ThreeBlocks

/-- Coordinates 0..63, 64..127 and 128..191 of a family indexed by 192 coordinates, summed stretch by stretch. -/
theorem sum_eq_three {M : Type*} [AddCommMonoid M] (f : Fin 192 → M) :
    ∑ k : Fin 192, f k
      = ((∑ κ : Fin 64, f ⟨κ.val, by omega⟩) + ∑ κ : Fin 64, f ⟨64 + κ.val, by omega⟩)
        + ∑ κ : Fin 64, f ⟨128 + κ.val, by omega⟩ := by
  have h1 : ∑ k : Fin 192, f k
      = (∑ i : Fin 128, f ⟨i.val, by omega⟩) + ∑ κ : Fin 64, f ⟨128 + κ.val, by omega⟩ :=
    Fin.sum_univ_add (a := 128) (b := 64) f
  have h2 : (∑ i : Fin 128, f ⟨i.val, by omega⟩)
      = (∑ κ : Fin 64, f ⟨κ.val, by omega⟩) + ∑ κ : Fin 64, f ⟨64 + κ.val, by omega⟩ :=
    Fin.sum_univ_add (a := 64) (b := 64) fun i : Fin 128 => f ⟨i.val, by omega⟩
  rw [h1, h2]

end Cert.ThreeBlocks
-- ==== Proof.MessageLaw.lean ====
/-
  The two ways of forming the messages agree on the extended reals.

  The kernel multiplies the source, destination and edge features by rows 0..63, 64..127 and 128..191 of the weight
  matrix separately and adds the three products; the reference multiplies the concatenation of the three feature
  arrays (along the feature axis) by the whole matrix. A product at entry (e, j) is the sum over the contracted
  coordinate, a sum over 192 coordinates is the sum of its three stretches of 64, and coordinate 64·s + κ of the
  concatenation is coordinate κ of piece s, so both are

      max (Σ_κ gs(e,κ)·W(κ,j) + Σ_κ gd(e,κ)·W(64+κ,j) + Σ_κ ea(e,κ)·W(128+κ,j) + b(j), 0).

  Only the associativity and commutativity of addition are used, so no finiteness of the inputs is needed.
-/
import proofs.«128394_j64630667870278_1_alg».proof.Proof.MessageArray
import proofs.«128394_j64630667870278_1_alg».proof.Proof.Gen.ReferenceIdeal.Read
import proofs.«128394_j64630667870278_1_alg».proof.Proof.ThreeBlocks
import proofs.«128394_j64630667870278_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.MessageLaw

open Idealize.ShloMosaic Idealize.ShloMosaic.ValueIdx
open Cert.ReferenceIdeal Cert.ReferenceIdeal.Facts₀
open Cert.ReferenceIdeal.Read (val_main_v10 val_main_v17 val_main_v23)

/-- The common value of the two forms at entry (p, q). -/
abbrev entry (gs gd ea : S800000x64.Idx → EReal) (W : S192x20.Idx → EReal) (b : S20.Idx → EReal) (p : Fin 800000) (q : Fin 20) : EReal :=
  max ((((∑ κ : Fin 64, gs (ix2 p κ) * W (ix2 (⟨κ.val, by omega⟩ : Fin 192) q))
          + ∑ κ : Fin 64, gd (ix2 p κ) * W (ix2 (⟨64 + κ.val, by omega⟩ : Fin 192) q))
          + ∑ κ : Fin 64, ea (ix2 p κ) * W (ix2 (⟨128 + κ.val, by omega⟩ : Fin 192) q)) + b (ix1 q))
      (Ideal.ofBits .f32 0x00000000#32)

/-! ## The reference's form -/

/-- The reference's messages as a function of the three feature arrays, the weight matrix and the bias. -/
def refMessages {F : FTy → Type} [FloatOps F] (gs gd ea : (⟨S800000x64, .f32⟩ : BufTy).Contents (Elt F))
    (W : (⟨S192x20, .f32⟩ : BufTy).Contents (Elt F)) (b : (⟨S20, .f32⟩ : BufTy).Contents (Elt F)) :
    (⟨S800000x20, .f32⟩ : BufTy).Contents (Elt F) :=
  maximumf (addf (Host.dotGeneral dot_S800000x192_S192x20_S800000x20_1_0_0_1_n_n none
      (concatenate S800000x192 1 [⟨S800000x64, gs⟩, ⟨S800000x64, gd⟩, ⟨S800000x64, ea⟩] concatenates_S800000x64_S800000x64_S800000x64_S800000x192_d1) W)
    (broadcastInDim S800000x20 ![0, 1] bcast_S1x20_S800000x20_0_1 (broadcastInDim S1x20 ![1] bcast_S20_S1x20_1 b)))
    (broadcastInDim S800000x20 ![] bcast_S_S800000x20 (constant (F := F) S_ .f32 0x00000000#32))

/-- The reference's product contracts the feature axis of the concatenation with the row axis of the weights. -/
theorem refDot_plain : PlainDot.IsPlain dot_S800000x192_S192x20_S800000x20_1_0_0_1_n_n := ⟨rfl, rfl, rfl, rfl, rfl, rfl⟩

section Pieces
variable (gs gd ea : S800000x64.Idx → EReal)

/-- The concatenation of the three feature arrays along the feature axis. -/
abbrev cat : S800000x192.Idx → EReal :=
  concatenate S800000x192 1 [⟨S800000x64, gs⟩, ⟨S800000x64, gd⟩, ⟨S800000x64, ea⟩] concatenates_S800000x64_S800000x64_S800000x64_S800000x192_d1

/-- Coordinates 0..63 of the concatenation are the source features. -/
theorem cat_src (p : Fin 800000) (κ : Fin 64) : cat gs gd ea (ix2 p (⟨κ.val, by omega⟩ : Fin 192)) = gs (ix2 p κ) :=
  concatenate_apply_piece (1 : Fin S800000x192.rank) [⟨S800000x64, gs⟩, ⟨S800000x64, gd⟩, ⟨S800000x64, ea⟩] concatenates_S800000x64_S800000x64_S800000x64_S800000x192_d1
    (ix2 p (⟨κ.val, by omega⟩ : Fin 192)) 0 (by simp) S800000x64 gs rfl rfl 0 rfl (ix2 p κ)
    (fun b hb => by
      match b with
      | ⟨0, _⟩ => rfl
      | ⟨1, _⟩ => exact absurd rfl hb)
    (by show 0 + κ.val = κ.val; omega)

/-- Coordinates 64..127 of the concatenation are the destination features. -/
theorem cat_dst (p : Fin 800000) (κ : Fin 64) : cat gs gd ea (ix2 p (⟨64 + κ.val, by omega⟩ : Fin 192)) = gd (ix2 p κ) :=
  concatenate_apply_piece (1 : Fin S800000x192.rank) [⟨S800000x64, gs⟩, ⟨S800000x64, gd⟩, ⟨S800000x64, ea⟩] concatenates_S800000x64_S800000x64_S800000x64_S800000x192_d1
    (ix2 p (⟨64 + κ.val, by omega⟩ : Fin 192)) 1 (by simp) S800000x64 gd rfl rfl 64 rfl (ix2 p κ)
    (fun b hb => by
      match b with
      | ⟨0, _⟩ => rfl
      | ⟨1, _⟩ => exact absurd rfl hb)
    (by show 64 + κ.val = 64 + κ.val; rfl)

/-- Coordinates 128..191 of the concatenation are the edge features. -/
theorem cat_edge (p : Fin 800000) (κ : Fin 64) : cat gs gd ea (ix2 p (⟨128 + κ.val, by omega⟩ : Fin 192)) = ea (ix2 p κ) :=
  concatenate_apply_piece (1 : Fin S800000x192.rank) [⟨S800000x64, gs⟩, ⟨S800000x64, gd⟩, ⟨S800000x64, ea⟩] concatenates_S800000x64_S800000x64_S800000x64_S800000x192_d1
    (ix2 p (⟨128 + κ.val, by omega⟩ : Fin 192)) 2 (by simp) S800000x64 ea rfl rfl 128 rfl (ix2 p κ)
    (fun b hb => by
      match b with
      | ⟨0, _⟩ => rfl
      | ⟨1, _⟩ => exact absurd rfl hb)
    (by show 128 + κ.val = 128 + κ.val; rfl)

end Pieces

/-- The bias broadcast to every edge, read at (p, q). -/
theorem bias_apply (b : S20.Idx → EReal) (p : Fin 800000) (q : Fin 20) :
    broadcastInDim S800000x20 ![0, 1] bcast_S1x20_S800000x20_0_1 (broadcastInDim S1x20 ![1] bcast_S20_S1x20_1 b) (ix2 p q) = b (ix1 q) :=
  (broadcastInDim_apply _ bcast_S1x20_S800000x20_0_1 (broadcastInDim S1x20 ![1] bcast_S20_S1x20_1 b) (ix2 p q) (ix2 (0 : Fin 1) q) (fun a => match a with
    | ⟨0, _⟩ => by show 0 = if (1 : Nat) = 1 then 0 else p.val; rw [if_pos rfl]
    | ⟨1, _⟩ => by show q.val = if (20 : Nat) = 1 then 0 else q.val; rw [if_neg (by decide)])).trans
  (broadcastInDim_apply _ bcast_S20_S1x20_1 b (ix2 (0 : Fin 1) q) (ix1 q) (fun a => match a with
    | ⟨0, _⟩ => by show q.val = if (20 : Nat) = 1 then 0 else q.val; rw [if_neg (by decide)]))

/-- The reference's messages at entry (p, q). -/
theorem refMessages_apply (gs gd ea : S800000x64.Idx → EReal) (W : S192x20.Idx → EReal) (b : S20.Idx → EReal) (p : Fin 800000) (q : Fin 20) :
    refMessages (F := Ideal) gs gd ea W b (ix2 p q) = entry gs gd ea W b p q := by
  unfold refMessages
  show max (FloatOps.dotGeneral (F := Ideal) dot_S800000x192_S192x20_S800000x20_1_0_0_1_n_n none .single (cat gs gd ea) W (ix2 p q)
      + broadcastInDim S800000x20 ![0, 1] bcast_S1x20_S800000x20_0_1 (broadcastInDim S1x20 ![1] bcast_S20_S1x20_1 b) (ix2 p q))
      (broadcastInDim S800000x20 ![] bcast_S_S800000x20 (constant (F := Ideal) S_ .f32 0x00000000#32) (ix2 p q)) = _
  rw [PlainDot.dotGeneral_plain _ refDot_plain, bias_apply, ThreeBlocks.sum_eq_three,
    broadcastInDim_apply _ bcast_S_S800000x20 (constant (F := Ideal) S_ .f32 0x00000000#32) (ix2 p q) ix0 (fun a => a.elim0)]
  simp only [cat_src, cat_dst, cat_edge]
  rfl

/-! ## The kernel's form -/

/-- The kernel's messages, formed from the three 64-row stretches of the weight matrix and the bias as a row, at
    entry (p, q). -/
theorem messages_apply (gs gd ea : S800000x64.Idx → EReal) (W : S192x20.Idx → EReal) (b : S20.Idx → EReal) (p : Fin 800000) (q : Fin 20) :
    Cert.KernelIdeal.MessageArray.messages gs gd ea
        (truncf (F := Ideal) .bf16 (extractStridedSlice Cert.KernelIdeal.S64x20 ![0, 0] W Cert.KernelIdeal.Facts₀.slices_S192x20_S64x20_0_0) Cert.KernelIdeal.Facts₀.bitsLt_bf16_f32)
        (truncf (F := Ideal) .bf16 (extractStridedSlice Cert.KernelIdeal.S64x20 ![64, 0] W Cert.KernelIdeal.Facts₀.slices_S192x20_S64x20_64_0) Cert.KernelIdeal.Facts₀.bitsLt_bf16_f32)
        (truncf (F := Ideal) .bf16 (extractStridedSlice Cert.KernelIdeal.S64x20 ![128, 0] W Cert.KernelIdeal.Facts₀.slices_S192x20_S64x20_128_0) Cert.KernelIdeal.Facts₀.bitsLt_bf16_f32)
        (shapeCast Cert.KernelIdeal.S1x20 b Cert.KernelIdeal.Facts₀.shapeCasts_S20_S1x20) (ix2 p q)
      = entry gs gd ea W b p q := by
  unfold Cert.KernelIdeal.MessageArray.messages
  have w0 : ∀ κ : Fin 64, extractStridedSlice Cert.KernelIdeal.S64x20 ![0, 0] W Cert.KernelIdeal.Facts₀.slices_S192x20_S64x20_0_0 (ix2 κ q)
      = W (ix2 (⟨κ.val, by omega⟩ : Fin 192) q) := fun κ =>
    extractStridedSlice_apply ![0, 0] W _ (ix2 κ q) (ix2 (⟨κ.val, by omega⟩ : Fin 192) q) (fun a => match a with
      | ⟨0, _⟩ => by show κ.val = 0 + κ.val; omega
      | ⟨1, _⟩ => by show q.val = 0 + q.val; omega)
  have w1 : ∀ κ : Fin 64, extractStridedSlice Cert.KernelIdeal.S64x20 ![64, 0] W Cert.KernelIdeal.Facts₀.slices_S192x20_S64x20_64_0 (ix2 κ q)
      = W (ix2 (⟨64 + κ.val, by omega⟩ : Fin 192) q) := fun κ =>
    extractStridedSlice_apply ![64, 0] W _ (ix2 κ q) (ix2 (⟨64 + κ.val, by omega⟩ : Fin 192) q) (fun a => match a with
      | ⟨0, _⟩ => by show 64 + κ.val = 64 + κ.val; rfl
      | ⟨1, _⟩ => by show q.val = 0 + q.val; omega)
  have w2 : ∀ κ : Fin 64, extractStridedSlice Cert.KernelIdeal.S64x20 ![128, 0] W Cert.KernelIdeal.Facts₀.slices_S192x20_S64x20_128_0 (ix2 κ q)
      = W (ix2 (⟨128 + κ.val, by omega⟩ : Fin 192) q) := fun κ =>
    extractStridedSlice_apply ![128, 0] W _ (ix2 κ q) (ix2 (⟨128 + κ.val, by omega⟩ : Fin 192) q) (fun a => match a with
      | ⟨0, _⟩ => by show 128 + κ.val = 128 + κ.val; rfl
      | ⟨1, _⟩ => by show q.val = 0 + q.val; omega)
  have hb : shapeCast Cert.KernelIdeal.S1x20 b Cert.KernelIdeal.Facts₀.shapeCasts_S20_S1x20 (ix2 (0 : Fin 1) q) = b (ix1 q) :=
    shapeCast_apply b _ (ix2 (0 : Fin 1) q) (ix1 q) (by
      rw [Shape.rowMajor_val_one, Shape.rowMajor_val_two]
      show q.val = 0 * 20 + q.val
      omega)
  show max ((((∑ κ : Fin 64, gs (ix2 p κ) * extractStridedSlice Cert.KernelIdeal.S64x20 ![0, 0] W Cert.KernelIdeal.Facts₀.slices_S192x20_S64x20_0_0 (ix2 κ q))
          + ∑ κ : Fin 64, gd (ix2 p κ) * extractStridedSlice Cert.KernelIdeal.S64x20 ![64, 0] W Cert.KernelIdeal.Facts₀.slices_S192x20_S64x20_64_0 (ix2 κ q))
          + ∑ κ : Fin 64, ea (ix2 p κ) * extractStridedSlice Cert.KernelIdeal.S64x20 ![128, 0] W Cert.KernelIdeal.Facts₀.slices_S192x20_S64x20_128_0 (ix2 κ q))
          + shapeCast Cert.KernelIdeal.S1x20 b Cert.KernelIdeal.Facts₀.shapeCasts_S20_S1x20 (ix2 (0 : Fin 1) q))
      (Ideal.ofBits .f32 0x00000000#32) = _
  simp only [w0, w1, w2, hb]

/-! ## The two forms are one array -/

/-- The kernel's message array, formed from the reference's own gathers, is the reference's message array. -/
theorem messages_eq (x0 : (⟨S2x800000, .i32⟩ : BufTy).Contents (Elt Ideal)) (x1 : (⟨S50000x64, .f32⟩ : BufTy).Contents (Elt Ideal))
    (x2 : (⟨S800000x64, .f32⟩ : BufTy).Contents (Elt Ideal)) (x4 : (⟨S192x20, .f32⟩ : BufTy).Contents (Elt Ideal))
    (x5 : (⟨S20, .f32⟩ : BufTy).Contents (Elt Ideal)) :
    Cert.KernelIdeal.MessageArray.messages (val_main_v10 (F := Ideal) x0 x1) (val_main_v17 (F := Ideal) x0 x1) x2
        (truncf (F := Ideal) .bf16 (extractStridedSlice Cert.KernelIdeal.S64x20 ![0, 0] x4 Cert.KernelIdeal.Facts₀.slices_S192x20_S64x20_0_0) Cert.KernelIdeal.Facts₀.bitsLt_bf16_f32)
        (truncf (F := Ideal) .bf16 (extractStridedSlice Cert.KernelIdeal.S64x20 ![64, 0] x4 Cert.KernelIdeal.Facts₀.slices_S192x20_S64x20_64_0) Cert.KernelIdeal.Facts₀.bitsLt_bf16_f32)
        (truncf (F := Ideal) .bf16 (extractStridedSlice Cert.KernelIdeal.S64x20 ![128, 0] x4 Cert.KernelIdeal.Facts₀.slices_S192x20_S64x20_128_0) Cert.KernelIdeal.Facts₀.bitsLt_bf16_f32)
        (shapeCast Cert.KernelIdeal.S1x20 x5 Cert.KernelIdeal.Facts₀.shapeCasts_S20_S1x20)
      = val_main_v23 (F := Ideal) x0 x1 x2 x4 x5 := by
  funext i
  have hr : val_main_v23 (F := Ideal) x0 x1 x2 x4 x5 = refMessages (F := Ideal) (val_main_v10 (F := Ideal) x0 x1) (val_main_v17 (F := Ideal) x0 x1) x2 x4 x5 := rfl
  rw [hr, eq_ix2 i]
  exact (messages_apply _ _ _ _ _ (i 0) (i 1)).trans (refMessages_apply _ _ _ _ _ (i 0) (i 1)).symm

end Cert.MessageLaw

end
-- ==== Proof.KernelRun.lean ====
/-
  The kernel program's run on the extended reals, with its result named.

  Every weakly fair execution terminates with the arguments unchanged (the generated frame run) and the result
  buffer holding the readout of the message array; that array is, entry by entry, the reference's message array
  (`MessageLaw.messages_eq`), so the result is stated in the reference's own terms.
-/
import proofs.«128394_j64630667870278_1_alg».proof.Proof.KernelResult
import proofs.«128394_j64630667870278_1_alg».proof.Proof.MessageLaw

set_option maxRecDepth 16384

noncomputable section

namespace Cert.KernelIdeal.KernelRun

open Cert.KernelIdeal Cert.KernelIdeal.Gen Idealize.ShloMosaic Idealize.ShloMosaic.TcCoe Idealize.SL.Sem
open Cert.ReferenceIdeal.Read (val_main_v3 val_main_v23)
open Cert.ReferenceIdeal.Readout (readout)

variable (m : (ℓ : Loc nD τ sig) → Buf (Elt Ideal) ℓ) (ρ : Dev nD → PrngReg)

/-- What the result buffer holds after the run, as a function of the arguments. -/
theorem result_eq (c : Dev nD) :
    Pipeline.afterTail₀ cfgs (dats m) 0 (V0 m) [hostOps1, hostOps1_1, hostOps1_2, hostOps1_3, hostOps1_4, hostOps1_5, hostOps1_6] c main_v50
      = readout (F := Ideal)
        (val_main_v23 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
        (val_main_v3 (F := Ideal) (m ((c.tc : Thread nD τ).loc main_arg0))) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [KernelResult.tail_eq, MessageArray.final, KernelResult.V_dstIndex, KernelResult.V_srcFeatures, KernelResult.V_dstFeatures,
    KernelResult.V_wSrc, KernelResult.V_wDst, KernelResult.V_wEdge, KernelResult.V_biasRow, V_main_arg2, Cert.MessageLaw.messages_eq]

/-- The run: the result at the readout of the messages, the arguments unchanged. -/
theorem run : θ_run defs (onTc (τ := τ) (main (F := Ideal))) ⟨m, fun _ => 0, ρ⟩ (fun r => ∀ c : Dev nD,
      r.2.mem ((c.tc : Thread nD τ).loc main_v50) = readout (F := Ideal)
        (val_main_v23 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
        (val_main_v3 (F := Ideal) (m ((c.tc : Thread nD τ).loc main_arg0))) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v50 (Pipeline.mem_restRefs_of main_v50 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩) (run_main m ρ)

end Cert.KernelIdeal.KernelRun

end
-- ==== Proof.ReferenceResult.lean ====
/-
  The reference program's result as a function of its arguments.

  The reference concatenates the two gathered node-feature arrays and the edge features along the feature axis,
  multiplies by the whole 192×20 weight matrix, adds the bias and takes the maximum with zero; what follows is the
  common readout. So its result is the readout of its own message array.
-/
import proofs.«128394_j64630667870278_1_alg».proof.Proof.Gen.ReferenceIdeal.Read
import proofs.«128394_j64630667870278_1_alg».proof.Proof.Readout

set_option maxRecDepth 16384

noncomputable section

namespace Cert.ReferenceIdeal.RefResult

open Cert.ReferenceIdeal Cert.ReferenceIdeal.Gen Idealize.ShloMosaic Idealize.ShloMosaic.TcCoe Idealize.SL.Sem
open Cert.ReferenceIdeal.Read Cert.ReferenceIdeal.Readout

variable {F : FTy → Type} [FloatOps F]

/-- The run's result term is the readout of the reference's messages. -/
theorem result_eq (m : (ℓ : Loc nD τ sig) → Buf (Elt F) ℓ) (c : Dev nD) :
    Cert.ReferenceIdeal.Value.res_main_v48 m c
      = readout (F := F)
          (val_main_v23 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
          (val_main_v3 (F := F) (m ((c.tc : Thread nD τ).loc main_arg0))) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.Value.res_main_v48
  rfl

end Cert.ReferenceIdeal.RefResult

end
-- ==== Proof.lean ====
/-
  A message-passing layer with its readout: the kernel against the reference, on the extended reals.

  Both programs gather the node features at each edge's source and destination. The kernel then computes the
  800000×20 message array in a pipelined region of 125 blocks of 6400 edges: three 64-wide matrix products (source,
  destination and edge features against the three 64-row stretches of the weight matrix), their sum, the bias, the
  maximum with zero. The reference concatenates the three feature arrays along the feature axis and multiplies by
  the whole 192×20 matrix. A sum over 192 coordinates is the sum of its three stretches of 64, so the two message
  arrays are equal entry by entry (only associativity and commutativity of addition: no finiteness is used). After
  the messages both programs apply the same readout — aggregation into destination nodes, two dense layers,
  aggregation into graphs, two dense layers — which is compared as one function and never opened.

  The two frames of the kernel programs are the generated frame certificates; the reference's frame is its generated
  run; the idealization rewrote nothing, so the kernel's idealized program is its own text read at the extended reals.
-/
import proofs.«128394_j64630667870278_1_alg».proof.Defs
import proofs.«128394_j64630667870278_1_alg».proof.Proof.Gen.Kernel
import proofs.«128394_j64630667870278_1_alg».proof.Proof.Gen.Kernel.Skeleton
import proofs.«128394_j64630667870278_1_alg».proof.Proof.Gen.Kernel.Launch
import proofs.«128394_j64630667870278_1_alg».proof.Proof.Gen.Kernel.Points
import proofs.«128394_j64630667870278_1_alg».proof.Proof.Gen.Kernel.Frame
import proofs.«128394_j64630667870278_1_alg».proof.Proof.Gen.KernelIdeal
import proofs.«128394_j64630667870278_1_alg».proof.Proof.Gen.KernelIdeal.Skeleton
import proofs.«128394_j64630667870278_1_alg».proof.Proof.Gen.KernelIdeal.Launch
import proofs.«128394_j64630667870278_1_alg».proof.Proof.Gen.KernelIdeal.Points
import proofs.«128394_j64630667870278_1_alg».proof.Proof.Gen.KernelIdeal.Frame
import proofs.«128394_j64630667870278_1_alg».proof.Proof.Gen.ReferenceIdeal
import proofs.«128394_j64630667870278_1_alg».proof.Proof.Gen.ReferenceIdeal.Run
import proofs.«128394_j64630667870278_1_alg».proof.Proof.Gen.ReferenceIdeal.Read
import proofs.«128394_j64630667870278_1_alg».proof.Proof.Gen.Pre_finite_inputs
import proofs.«128394_j64630667870278_1_alg».proof.Proof.KernelRun
import proofs.«128394_j64630667870278_1_alg».proof.Proof.ReferenceResult
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the readout of one and the same message array. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.RefResult.result_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
